-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x512 : Shape := ⟨2, ![131072, 512]⟩
abbrev S131072 : Shape := ⟨1, ![131072]⟩
abbrev S_ : Shape := ⟨0, ![]⟩

class Facts : Prop where
  bcast_S_S131072x512 : S_.BroadcastsInDim S131072x512 (![] : Fin 0 → Fin S131072x512.rank)
  reducesTo_S131072x512_S_d0_1 : S131072x512.ReducesTo [0, 1] S_
  h_S_ : 0 < S_.numel
  bcast_S_S131072 : S_.BroadcastsInDim S131072 (![] : Fin 0 → Fin S131072.rank)
  reducesTo_S131072_S_d0 : S131072.ReducesTo [0] S_

variable [Facts]

def fn {F : FTy → Type} [FloatOps F] (main_arg0 : FVec F S131072x512 .f32) (main_arg1 : FVec F S131072x512 .f32) (main_arg2 : IVec S131072 32) : IVec S_ 1 :=
  let main_v0 : FVec F S131072x512 .f32 := Host.absf main_arg0
  let main_cst : FVec F S_ .f32 := constant S_ .f32 0x7F800000#32
  let main_v1 : FVec F S131072x512 .f32 := broadcastInDim S131072x512 ![] bcast_S_S131072x512 main_cst
  let main_v2 : IVec S131072x512 1 := cmpf .olt main_v0 main_v1
  let main_c : IVec S_ 1 := constantI S_ 1 1#1
  let main_v3 : IVec S_ 1 := (fun x v => Host.reduce IntOp.andi x v reducesTo_S131072x512_S_d0_1 h_S_) main_v2 main_c
  let main_v4 : FVec F S131072x512 .f32 := Host.absf main_arg1
  let main_cst_0 : FVec F S_ .f32 := constant S_ .f32 0x7F800000#32
  let main_v5 : FVec F S131072x512 .f32 := broadcastInDim S131072x512 ![] bcast_S_S131072x512 main_cst_0
  let main_v6 : IVec S131072x512 1 := cmpf .olt main_v4 main_v5
  let main_c_1 : IVec S_ 1 := constantI S_ 1 1#1
  let main_v7 : IVec S_ 1 := (fun x v => Host.reduce IntOp.andi x v reducesTo_S131072x512_S_d0_1 h_S_) main_v6 main_c_1
  let main_v8 : IVec S_ 1 := andi main_v3 main_v7
  let main_c_2 : IVec S_ 32 := constantI S_ 32 0#32
  let main_v9 : IVec S131072 32 := broadcastInDim S131072 ![] bcast_S_S131072 main_c_2
  let main_v10 : IVec S131072 1 := cmpi .eq main_arg2 main_v9
  let main_c_3 : IVec S_ 32 := constantI S_ 32 1#32
  let main_v11 : IVec S131072 32 := broadcastInDim S131072 ![] bcast_S_S131072 main_c_3
  let main_v12 : IVec S131072 1 := cmpi .eq main_arg2 main_v11
  let main_v13 : IVec S131072 1 := ori main_v10 main_v12
  let main_c_4 : IVec S_ 1 := constantI S_ 1 1#1
  let main_v14 : IVec S_ 1 := (fun x v => Host.reduce IntOp.andi x v reducesTo_S131072_S_d0 h_S_) main_v13 main_c_4
  let main_v15 : IVec S_ 1 := andi main_v8 main_v14
  main_v15
-- ==== Kernel.lean ====
abbrev S131072x512 : Shape := ⟨2, ![131072, 512]⟩
abbrev S131072 : Shape := ⟨1, ![131072]⟩
abbrev S_ : Shape := ⟨0, ![]⟩
abbrev S131072x1 : Shape := ⟨2, ![131072, 1]⟩
abbrev S131072x2 : Shape := ⟨2, ![131072, 2]⟩
abbrev S2048x512 : Shape := ⟨2, ![2048, 512]⟩
abbrev S2048x1 : Shape := ⟨2, ![2048, 1]⟩
abbrev S2048x2 : Shape := ⟨2, ![2048, 2]⟩
abbrev S2048 : Shape := ⟨1, ![2048]⟩

abbrev nBuf : Space → Nat
  | .hbm => 30
  | .vmem => 8
  | .smem => 0
  | _ => 0

abbrev bufTy : (tb : Table) → Fin (tcTables nBuf tb) → BufTy
  | .hbm, ⟨0, _⟩ => ⟨S131072x512, .f32⟩
  | .hbm, ⟨1, _⟩ => ⟨S131072x512, .f32⟩
  | .hbm, ⟨2, _⟩ => ⟨S131072, .i32⟩
  | .hbm, ⟨3, _⟩ => ⟨S_, .i32⟩
  | .hbm, ⟨4, _⟩ => ⟨S131072, .i32⟩
  | .hbm, ⟨5, _⟩ => ⟨S131072, .i1⟩
  | .hbm, ⟨6, _⟩ => ⟨S131072, .f32⟩
  | .hbm, ⟨7, _⟩ => ⟨S131072x1, .f32⟩
  | .hbm, ⟨8, _⟩ => ⟨S131072x2, .f32⟩
  | .hbm, ⟨9, _⟩ => ⟨S131072x1, .f32⟩
  | .hbm, ⟨10, _⟩ => ⟨S131072, .f32⟩
  | .hbm, ⟨11, _⟩ => ⟨S_, .f32⟩
  | .hbm, ⟨12, _⟩ => ⟨S_, .f32⟩
  | .hbm, ⟨13, _⟩ => ⟨S131072x1, .f32⟩
  | .hbm, ⟨14, _⟩ => ⟨S131072, .f32⟩
  | .hbm, ⟨15, _⟩ => ⟨S_, .f32⟩
  | .hbm, ⟨16, _⟩ => ⟨S_, .f32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .f32⟩
  | .hbm, ⟨24, _⟩ => ⟨S_, .f32⟩
  | .hbm, ⟨25, _⟩ => ⟨S_, .i32⟩
  | .hbm, ⟨26, _⟩ => ⟨S_, .i32⟩
  | .hbm, ⟨27, _⟩ => ⟨S_, .f32⟩
  | .hbm, ⟨28, _⟩ => ⟨S_, .f32⟩
  | .hbm, ⟨29, _⟩ => ⟨S_, .f32⟩
  | .local _ .vmem, ⟨0, _⟩ => ⟨S2048x512, .f32⟩
  | .local _ .vmem, ⟨1, _⟩ => ⟨S2048x512, .f32⟩
  | .local _ .vmem, ⟨2, _⟩ => ⟨S2048x512, .f32⟩
  | .local _ .vmem, ⟨3, _⟩ => ⟨S2048x512, .f32⟩
  | .local _ .vmem, ⟨4, _⟩ => ⟨S2048x1, .f32⟩
  | .local _ .vmem, ⟨5, _⟩ => ⟨S2048x1, .f32⟩
  | .local _ .vmem, ⟨6, _⟩ => ⟨S2048x2, .f32⟩
  | .local _ .vmem, ⟨7, _⟩ => ⟨S2048x2, .f32⟩
  | _, _ => ⟨S131072x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_c_1 : Ref sig .tc := ⟨.hbm, 17, rfl⟩
abbrev main_v11 : Ref sig .tc := ⟨.hbm, 18, rfl⟩
abbrev main_c_2 : Ref sig .tc := ⟨.hbm, 19, rfl⟩
abbrev main_v12 : Ref sig .tc := ⟨.hbm, 20, rfl⟩
abbrev main_c_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x2 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S131072 : S_.BroadcastsInDim S131072 (![] : Fin 0 → Fin S131072.rank)
  shapeCasts_S131072_S131072x1 : S131072.ShapeCasts S131072x1
  inb_S2048x512_S2048x512_0_0 : ∀ a, (![0, 0] : Fin 2 → Nat) a + S2048x512.size a ≤ S2048x512.size a
  h_S2048x512 : 0 < S2048x512.numel
  reduces_S2048x512_S2048 : S2048x512.Reduces [1] S2048
  shapeCasts_S2048_S2048x1 : S2048.ShapeCasts S2048x1
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x2_S2048x1_0_0 : ∀ a, (![0, 0] : Fin 2 → Nat) a + S2048x1.size a ≤ S2048x2.size a
  inb_S2048x2_S2048x1_0_1 : ∀ a, (![0, 1] : Fin 2 → Nat) a + S2048x1.size a ≤ S2048x2.size a
  slices_S131072x2_S131072x1_0_0 : S131072x2.Slices ![0, 0] S131072x1
  shapeCasts_S131072x1_S131072 : S131072x1.ShapeCasts S131072
  reducesTo_S131072_S_d0 : S131072.ReducesTo [0] S_
  h_S_ : 0 < S_.numel
  slices_S131072x2_S131072x1_0_1 : S131072x2.Slices ![0, 1] S131072x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S131072x512.size a
  hwx0_0 : ∀ i : grid0.Coords, EltTy.bits .f32 = 32 ∨ (Rect.block (s := S131072x512) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S131072x512.size a
  hwx0_1 : ∀ i : grid0.Coords, EltTy.bits .f32 = 32 ∨ (Rect.block (s := S131072x512) S2048x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S131072x1.size a
  hwx0_2 : ∀ i : grid0.Coords, EltTy.bits .f32 = 32 ∨ (Rect.block (s := S131072x1) S2048x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x2.size a ≤ S131072x2.size a
  hwx0_3 : ∀ i : grid0.Coords, EltTy.bits .f32 = 32 ∨ (Rect.block (s := S131072x2) S2048x2.size (cc0_transform_3 i) (hinb0_3 i)).WholeWords (EltTy.packing .f32)

variable [Facts₀]

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S2048x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S2048x2.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S131072x512 : Shape := ⟨2, ![131072, 512]⟩
abbrev S131072 : Shape := ⟨1, ![131072]⟩
abbrev S_ : Shape := ⟨0, ![]⟩

abbrev nBuf : Space → Nat
  | .hbm => 94
  | .vmem => 0
  | .smem => 0
  | _ => 0

abbrev bufTy : (tb : Table) → Fin (tcTables nBuf tb) → BufTy
  | .hbm, ⟨0, _⟩ => ⟨S131072x512, .f32⟩
  | .hbm, ⟨1, _⟩ => ⟨S131072x512, .f32⟩
  | .hbm, ⟨2, _⟩ => ⟨S131072, .i32⟩
  | .hbm, ⟨3, _⟩ => ⟨S131072x512, .f32⟩
  | .hbm, ⟨4, _⟩ => ⟨S_, .f32⟩
  | .hbm, ⟨5, _⟩ => ⟨S131072, .f32⟩
  | .hbm, ⟨6, _⟩ => ⟨S131072x512, .f32⟩
  | .hbm, ⟨7, _⟩ => ⟨S_, .f32⟩
  | .hbm, ⟨8, _⟩ => ⟨S131072, .f32⟩
  | .hbm, ⟨9, _⟩ => ⟨S131072, .f32⟩
  | .hbm, ⟨10, _⟩ => ⟨S131072x512, .f32⟩
  | .hbm, ⟨11, _⟩ => ⟨S_, .f32⟩
  | .hbm, ⟨12, _⟩ => ⟨S131072, .f32⟩
  | .hbm, ⟨13, _⟩ => ⟨S131072, .f32⟩
  | .hbm, ⟨14, _⟩ => ⟨S131072, .f32⟩
  | .hbm, ⟨15, _⟩ => ⟨S_, .f32⟩
  | .hbm, ⟨16, _⟩ => ⟨S131072, .f32⟩
  | .hbm, ⟨17, _⟩ => ⟨S131072, .f32⟩
  | .hbm, ⟨18, _⟩ => ⟨S131072, .f32⟩
  | .hbm, ⟨19, _⟩ => ⟨S_, .f32⟩
  | .hbm, ⟨20, _⟩ => ⟨S131072, .f32⟩
  | .hbm, ⟨21, _⟩ => ⟨S131072, .f32⟩
  | .hbm, ⟨22, _⟩ => ⟨S_, .f32⟩
  | .hbm, ⟨23, _⟩ => ⟨S131072, .f32⟩
  | .hbm, ⟨24, _⟩ => ⟨S131072, .f32⟩
  | .hbm, ⟨25, _⟩ => ⟨S_, .f32⟩
  | .hbm, ⟨26, _⟩ => ⟨S131072, .f32⟩
  | .hbm, ⟨27, _⟩ => ⟨S131072, .f32⟩
  | .hbm, ⟨28, _⟩ => ⟨S131072, .f32⟩
  | .hbm, ⟨29, _⟩ => ⟨S131072, .f32⟩
  | .hbm, ⟨30, _⟩ => ⟨S131072, .i1⟩
  | .hbm, ⟨31, _⟩ => ⟨S131072, .f32⟩
  | .hbm, ⟨32, _⟩ => ⟨S131072, .f32⟩
  | .hbm, ⟨33, _⟩ => ⟨S131072, .f32⟩
  | .hbm, ⟨34, _⟩ => ⟨S131072, .f32⟩
  | .hbm, ⟨35, _⟩ => ⟨S131072, .f32⟩
  | .hbm, ⟨36, _⟩ => ⟨S131072, .f32⟩
  | .hbm, ⟨37, _⟩ => ⟨S131072, .f32⟩
  | .hbm, ⟨38, _⟩ => ⟨S131072, .f32⟩
  | .hbm, ⟨39, _⟩ => ⟨S_, .f32⟩
  | .hbm, ⟨40, _⟩ => ⟨S131072, .f32⟩
  | .hbm, ⟨41, _⟩ => ⟨S131072, .f32⟩
  | .hbm, ⟨42, _⟩ => ⟨S_, .f32⟩
  | .hbm, ⟨43, _⟩ => ⟨S131072, .f32⟩
  | .hbm, ⟨44, _⟩ => ⟨S131072, .f32⟩
  | .hbm, ⟨45, _⟩ => ⟨S_, .f32⟩
  | .hbm, ⟨46, _⟩ => ⟨S131072, .f32⟩
  | .hbm, ⟨47, _⟩ => ⟨S131072, .f32⟩
  | .hbm, ⟨48, _⟩ => ⟨S_, .f32⟩
  | .hbm, ⟨49, _⟩ => ⟨S131072, .f32⟩
  | .hbm, ⟨50, _⟩ => ⟨S131072, .f32⟩
  | .hbm, ⟨51, _⟩ => ⟨S131072, .f32⟩
  | .hbm, ⟨52, _⟩ => ⟨S131072, .f32⟩
  | .hbm, ⟨53, _⟩ => ⟨S131072, .i1⟩
  | .hbm, ⟨54, _⟩ => ⟨S131072, .f32⟩
  | .hbm, ⟨55, _⟩ => ⟨S131072, .f32⟩
  | .hbm, ⟨56, _⟩ => ⟨S131072, .f32⟩
  | .hbm, ⟨57, _⟩ => ⟨S131072, .f32⟩
  | .hbm, ⟨58, _⟩ => ⟨S131072, .f32⟩
  | .hbm, ⟨59, _⟩ => ⟨S131072, .f32⟩
  | .hbm, ⟨60, _⟩ => ⟨S131072, .f32⟩
  | .hbm, ⟨61, _⟩ => ⟨S131072, .f32⟩
  | .hbm, ⟨62, _⟩ => ⟨S_, .f32⟩
  | .hbm, ⟨63, _⟩ => ⟨S131072, .f32⟩
  | .hbm, ⟨64, _⟩ => ⟨S131072, .f32⟩
  | .hbm, ⟨65, _⟩ => ⟨S_, .i32⟩
  | .hbm, ⟨66, _⟩ => ⟨S131072, .i32⟩
  | .hbm, ⟨67, _⟩ => ⟨S131072, .i1⟩
  | .hbm, ⟨68, _⟩ => ⟨S131072, .i32⟩
  | .hbm, ⟨69, _⟩ => ⟨S_, .i32⟩
  | .hbm, ⟨70, _⟩ => ⟨S_, .i32⟩
  | .hbm, ⟨71, _⟩ => ⟨S_, .i32⟩
  | .hbm, ⟨72, _⟩ => ⟨S_, .i32⟩
  | .hbm, ⟨73, _⟩ => ⟨S_, .f32⟩
  | .hbm, ⟨74, _⟩ => ⟨S_, .f32⟩
  | .hbm, ⟨75, _⟩ => ⟨S131072, .f32⟩
  | .hbm, ⟨76, _⟩ => ⟨S131072, .f32⟩
  | .hbm, ⟨77, _⟩ => ⟨S_, .f32⟩
  | .hbm, ⟨78, _⟩ => ⟨S_, .f32⟩
  | .hbm, ⟨79, _⟩ => ⟨S_, .i32⟩
  | .hbm, ⟨80, _⟩ => ⟨S_, .i32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S131072, .f32⟩
  | .hbm, ⟨86, _⟩ => ⟨S131072, .f32⟩
  | .hbm, ⟨87, _⟩ => ⟨S_, .f32⟩
  | .hbm, ⟨88, _⟩ => ⟨S_, .f32⟩
  | .hbm, ⟨89, _⟩ => ⟨S_, .i32⟩
  | .hbm, ⟨90, _⟩ => ⟨S_, .i32⟩
  | .hbm, ⟨91, _⟩ => ⟨S_, .f32⟩
  | .hbm, ⟨92, _⟩ => ⟨S_, .f32⟩
  | .hbm, ⟨93, _⟩ => ⟨S_, .f32⟩
  | _, _ => ⟨S131072x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_call0_v0 : Ref sig .tc := ⟨.hbm, 6, rfl⟩
abbrev main_call0_cst : Ref sig .tc := ⟨.hbm, 7, rfl⟩
abbrev main_call0_v1 : Ref sig .tc := ⟨.hbm, 8, rfl⟩
abbrev main_v2 : Ref sig .tc := ⟨.hbm, 9, rfl⟩
abbrev main_call1_v0 : Ref sig .tc := ⟨.hbm, 10, rfl⟩
abbrev main_call1_cst : Ref sig .tc := ⟨.hbm, 11, rfl⟩
abbrev main_call1_v1 : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_call2_cst : Ref sig .tc := ⟨.hbm, 25, rfl⟩
abbrev main_call2_v0 : Ref sig .tc := ⟨.hbm, 26, rfl⟩
abbrev main_call2_v1 : Ref sig .tc := ⟨.hbm, 27, rfl⟩
abbrev main_call2_v2 : Ref sig .tc := ⟨.hbm, 28, rfl⟩
abbrev main_call2_v3 : Ref sig .tc := ⟨.hbm, 29, rfl⟩
abbrev main_call2_v4 : Ref sig .tc := ⟨.hbm, 30, rfl⟩
abbrev main_call2_v5 : Ref sig .tc := ⟨.hbm, 31, rfl⟩
abbrev main_call2_v6 : Ref sig .tc := ⟨.hbm, 32, rfl⟩
abbrev main_call2_v7 : Ref sig .tc := ⟨.hbm, 33, rfl⟩
abbrev main_call2_v8 : Ref sig .tc := ⟨.hbm, 34, rfl⟩
abbrev main_call2_v9 : Ref sig .tc := ⟨.hbm, 35, rfl⟩
abbrev main_call2_v10 : Ref sig .tc := ⟨.hbm, 36, rfl⟩
abbrev main_call2_v11 : Ref sig .tc := ⟨.hbm, 37, rfl⟩
abbrev main_v12 : Ref sig .tc := ⟨.hbm, 38, rfl⟩
abbrev main_cst_3 : Ref sig .tc := ⟨.hbm, 39, rfl⟩
abbrev main_v13 : Ref sig .tc := ⟨.hbm, 40, rfl⟩
abbrev main_v14 : Ref sig .tc := ⟨.hbm, 41, rfl⟩
abbrev main_cst_4 : Ref sig .tc := ⟨.hbm, 42, rfl⟩
abbrev main_v15 : Ref sig .tc := ⟨.hbm, 43, rfl⟩
abbrev main_v16 : Ref sig .tc := ⟨.hbm, 44, rfl⟩
abbrev main_cst_5 : Ref sig .tc := ⟨.hbm, 45, rfl⟩
abbrev main_v17 : Ref sig .tc := ⟨.hbm, 46, rfl⟩
abbrev main_v18 : Ref sig .tc := ⟨.hbm, 47, rfl⟩
abbrev main_call3_cst : Ref sig .tc := ⟨.hbm, 48, rfl⟩
abbrev main_call3_v0 : Ref sig .tc := ⟨.hbm, 49, rfl⟩
abbrev main_call3_v1 : Ref sig .tc := ⟨.hbm, 50, rfl⟩
abbrev main_call3_v2 : Ref sig .tc := ⟨.hbm, 51, rfl⟩
abbrev main_call3_v3 : Ref sig .tc := ⟨.hbm, 52, rfl⟩
abbrev main_call3_v4 : Ref sig .tc := ⟨.hbm, 53, rfl⟩
abbrev main_call3_v5 : Ref sig .tc := ⟨.hbm, 54, rfl⟩
abbrev main_call3_v6 : Ref sig .tc := ⟨.hbm, 55, rfl⟩
abbrev main_call3_v7 : Ref sig .tc := ⟨.hbm, 56, rfl⟩
abbrev main_call3_v8 : Ref sig .tc := ⟨.hbm, 57, rfl⟩
abbrev main_call3_v9 : Ref sig .tc := ⟨.hbm, 58, rfl⟩
abbrev main_call3_v10 : Ref sig .tc := ⟨.hbm, 59, rfl⟩
abbrev main_call3_v11 : Ref sig .tc := ⟨.hbm, 60, rfl⟩
abbrev main_v19 : Ref sig .tc := ⟨.hbm, 61, rfl⟩
abbrev main_cst_6 : Ref sig .tc := ⟨.hbm, 62, rfl⟩
abbrev main_v20 : Ref sig .tc := ⟨.hbm, 63, rfl⟩
abbrev main_v21 : Ref sig .tc := ⟨.hbm, 64, rfl⟩
abbrev main_c : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_c_7 : Ref sig .tc := ⟨.hbm, 69, rfl⟩
abbrev main_v25 : Ref sig .tc := ⟨.hbm, 70, rfl⟩
abbrev main_c_8 : Ref sig .tc := ⟨.hbm, 71, rfl⟩
abbrev main_v26 : Ref sig .tc := ⟨.hbm, 72, rfl⟩
abbrev main_cst_9 : Ref sig .tc := ⟨.hbm, 73, rfl⟩
abbrev main_call4_v0 : Ref sig .tc := ⟨.hbm, 74, rfl⟩
abbrev main_call4_v1 : Ref sig .tc := ⟨.hbm, 75, rfl⟩
abbrev main_v27 : Ref sig .tc := ⟨.hbm, 76, rfl⟩
abbrev main_cst_10 : Ref sig .tc := ⟨.hbm, 77, rfl⟩
abbrev main_v28 : Ref sig .tc := ⟨.hbm, 78, rfl⟩
abbrev main_c_11 : Ref sig .tc := ⟨.hbm, 79, rfl⟩
abbrev main_v29 : Ref sig .tc := ⟨.hbm, 80, rfl⟩
abbrev main_v30 : Ref sig .tc := ⟨.hbm, 81, rfl⟩
abbrev main_v31 : Ref sig .tc := ⟨.hbm, 82, rfl⟩
abbrev main_cst_12 : Ref sig .tc := ⟨.hbm, 83, rfl⟩
abbrev main_call5_v0 : Ref sig .tc := ⟨.hbm, 84, rfl⟩
abbrev main_call5_v1 : Ref sig .tc := ⟨.hbm, 85, rfl⟩
abbrev main_v32 : Ref sig .tc := ⟨.hbm, 86, rfl⟩
abbrev main_cst_13 : Ref sig .tc := ⟨.hbm, 87, rfl⟩
abbrev main_v33 : Ref sig .tc := ⟨.hbm, 88, rfl⟩
abbrev main_c_14 : Ref sig .tc := ⟨.hbm, 89, rfl⟩
abbrev main_v34 : Ref sig .tc := ⟨.hbm, 90, rfl⟩
abbrev main_v35 : Ref sig .tc := ⟨.hbm, 91, rfl⟩
abbrev main_v36 : Ref sig .tc := ⟨.hbm, 92, rfl⟩
abbrev main_v37 : Ref sig .tc := ⟨.hbm, 93, rfl⟩

abbrev nD : Nat := 1
abbrev τ : Topo := Topo.v7x

variable {F : FTy → Type} [FloatOps F]

class Facts₀ : Prop where
  reducesTo_S131072x512_S131072_d1 : S131072x512.ReducesTo [1] S131072
  h_S_ : 0 < S_.numel
  bcast_S_S131072 : S_.BroadcastsInDim S131072 (![] : Fin 0 → Fin S131072.rank)
  natLt_1_32 : 1 < 32
  reducesTo_S131072_S_d0 : S131072.ReducesTo [0] S_

variable [Facts₀]

class Facts : Prop extends Facts₀ where

variable [Facts]
-- ==== Proof.Deviance.lean ====
/-
  The binomial-deviance loss of two batches of row vectors, as mathematics on the extended reals.

  For one pair of rows u, v (512 entries each) the similarity is the cosine
      d = ⟨u, v⟩ / max (‖u‖ · ‖v‖, ε),        ‖u‖ = √⟨u, u⟩,
  and the two deviance terms are
      pos d = 4 · softplus (−½ · (d − ½)),     neg d = (1/25) · softplus (50 · (d − 2)),
  with softplus x = log (1 + eˣ) written in the overflow-safe form max (x, 0) + log1p (e^(−|x|)).
  A row labelled positive contributes pos d to the first sum and nothing to the second, any other row
  contributes neg d to the second sum and nothing to the first; the loss is the first sum over the number of
  positive rows plus the second over the number of the others (each count at least one).
  Everything here is stated over the float constants' bit patterns, so the same pattern on the two sides of an
  equation is never evaluated; only the zero and the one patterns are.
-/
import Idealize.ShloMosaic.PureOps.Ideal
import Idealize.ShloMosaic.PureOps.Ideal.Laws
import Idealize.ShloMosaic.Lib.ValueIdx

noncomputable section

namespace Cert.Deviance

open Idealize.ShloMosaic Idealize.ShloMosaic.ValueIdx

/-- The extended real a 32-bit float pattern denotes. -/
abbrev lit (w : BitVec 32) : EReal := Ideal.ofBits .f32 w

theorem lit_zero : lit 0x00000000#32 = 0 := Ideal.ofBits_zero_f32

theorem lit_one : lit 0x3F800000#32 = 1 := by
  simp [lit, Ideal.ofBits, Ideal.ieee, -EReal.coe_mul]
  norm_num

/-- |x| on the extended reals. -/
abbrev absE (x : EReal) : EReal := max x (-x)

/-- The cosine of two rows from their inner product `d` and their squared norms `s₁`, `s₂`, the product of
    the norms kept at least ε = 1e-6 (as a float). -/
def cosine (d s₁ s₂ : EReal) : EReal :=
  Ideal.div d (max (Ideal.sqrt s₁ * Ideal.sqrt s₂) (lit 0x358637BD#32))

/-- softplus x = log (1 + eˣ) as max (x, 0) + log1p (e^(−|x|)); the branch taken when `x − 0 ≠ x − 0`
    (never, on the extended reals) returns `x + 0`. -/
def softplus (x : EReal) : EReal :=
  Scalar.select (Ideal.cmp .une (x - lit 0x00000000#32) (x - lit 0x00000000#32)) (x + lit 0x00000000#32)
    (max x (lit 0x00000000#32) + Ideal.log1p (Ideal.exp (-(absE (x - lit 0x00000000#32)))))

/-- The same function with the exponent spelt 0 − |x| and the vacuous test spelt "ordered and unequal". -/
def softplus' (x : EReal) : EReal :=
  Scalar.select (Ideal.cmp .one (x - lit 0x00000000#32) (x - lit 0x00000000#32)) (x + lit 0x00000000#32)
    (max x (lit 0x00000000#32) + Ideal.log1p (Ideal.exp (lit 0x00000000#32 - absE (x - lit 0x00000000#32))))

theorem softplus'_eq (x : EReal) : softplus' x = softplus x := by
  unfold softplus' softplus
  rw [show lit 0x00000000#32 - absE (x - lit 0x00000000#32) = -(absE (x - lit 0x00000000#32)) from by
    rw [lit_zero, zero_sub]]
  rfl

/-- The positive-pair term 4 · softplus (−½ · (d − ½)). -/
def posTerm (d : EReal) : EReal :=
  lit 0x40800000#32 * softplus (lit 0xBF000000#32 * (d - lit 0x3F000000#32))

/-- The negative-pair term (1/25 as a float) · softplus (50 · (d − 2)). -/
def negTerm (d : EReal) : EReal :=
  lit 0x3D23D70A#32 * softplus (lit 0x42480000#32 * (d - lit 0x40000000#32))

/-- The cosine of two rows given entry by entry. -/
def rowCos (u v : Fin 512 → EReal) : EReal :=
  cosine (∑ k : Fin 512, u k * v k) (∑ k : Fin 512, u k * u k) (∑ k : Fin 512, v k * v k)

/-- What a row contributes to the positive sum (`col = 0`) or to the negative sum (`col = 1`): `b` is the
    row's label bit, 1 when the row is a positive pair. -/
def contrib (u v : Fin 512 → EReal) (b : BitVec 1) : EReal × EReal :=
  (Scalar.select b (posTerm (rowCos u v)) 0, Scalar.select b 0 (negTerm (rowCos u v)))

/-- With the label as a number μ ∈ {0, 1}, μ · p is p for a positive row and 0 otherwise. -/
theorem mask_mul (b : BitVec 1) (p : EReal) :
    (((b.toNat : ℝ) : EReal)) * p = Scalar.select b p 0 := by
  rcases (by decide : ∀ b : BitVec 1, b = 0#1 ∨ b = 1#1) b with rfl | rfl
  · rw [select_zero]; simp
  · rw [select_one]; simp

/-- And (1 − μ) · q is 0 for a positive row and q otherwise. -/
theorem comask_mul (b : BitVec 1) (q : EReal) :
    (lit 0x3F800000#32 - (((b.toNat : ℝ) : EReal))) * q = Scalar.select b 0 q := by
  rw [lit_one]
  rcases (by decide : ∀ b : BitVec 1, b = 0#1 ∨ b = 1#1) b with rfl | rfl
  · rw [select_zero]; simp
  · rw [select_one]
    have : ((1 : EReal) - (((1#1 : BitVec 1).toNat : ℝ) : EReal)) = 0 := by
      have h1 : (((1#1 : BitVec 1).toNat : ℝ) : EReal) = ((1 : ℝ) : EReal) := by simp
      rw [h1, ← EReal.coe_one, ← EReal.coe_sub, sub_self, EReal.coe_zero]
    rw [this, zero_mul]

end Cert.Deviance

end
-- ==== Proof.KernelRows.lean ====
/-
  One block of the kernel, read entry by entry on the extended reals.

  The body gets a block of 2048 rows of each input matrix and the 2048 label numbers μ (a column), and writes a
  2048 × 2 block: column 0 holds μ · pos d, column 1 holds (1 − μ) · neg d, with d the cosine of the row pair. A lane sum over
  the 512 entries of a row, reshaped to a column, is the finite sum of the row (the reduction's law on the extended reals); the rest
  of the body is pointwise.
-/
import proofs.«417344_j4252017623385_1_alg».proof.Proof.Gen.KernelIdeal.Frame
import proofs.«417344_j4252017623385_1_alg».proof.Proof.Deviance
import Idealize.ShloMosaic.Lib.Pipeline.Value
import Idealize.ShloMosaic.Lib.ValueIdx
import Idealize.ShloMosaic.PureOps.Ideal.Laws

noncomputable section

namespace Cert.KernelIdeal.Rows

open Idealize.ShloMosaic Idealize.ShloMosaic.ValueIdx Cert.KernelIdeal Cert.KernelIdeal.Gen Cert.Deviance

/-- A lane sum of a 2048 × 512 block kept as a column: entry (y, 0) is the sum of row y. -/
theorem laneSum_col (v : FVec Ideal S2048x512 .f32) (y : Fin 2048) :
    shapeCast S2048x1 (multiReduction (F := Ideal) .add [1] S2048 v 0x00000000#32 reduces_S2048x512_S2048 (.inl rfl) rfl)
        shapeCasts_S2048_S2048x1 (ix2 y (0 : Fin 1))
      = ∑ k : Fin 512, v (ix2 y k) := by
  refine (shapeCast_apply _ shapeCasts_S2048_S2048x1 (ix2 y (0 : Fin 1)) (ix1 y) ?_).trans ?_
  · rw [Shape.rowMajor_val_one, Shape.rowMajor_val_two]; simp
  · refine (Ideal.multiReduction_add_single v 0x00000000#32 reduces_S2048x512_S2048 (.inl rfl) rfl (ix1 y)).trans ?_
    refine Finset.sum_congr rfl fun k _ => congrArg v (funext fun a => Fin.ext ?_)
    match a with
    | ⟨0, _⟩ => rfl
    | ⟨1, _⟩ => rfl

/-- The body's cosine of row pair y of its two blocks. -/
theorem cos_row (x0 x1 : Vec Ideal S2048x512 .f32) (y : Fin 2048) :
    k0_pay4 (F := Ideal) x0 x1 (ix2 y (0 : Fin 1)) = rowCos (fun k => x0 (ix2 y k)) (fun k => x1 (ix2 y k)) := by
  unfold k0_pay4 rowCos cosine
  show Ideal.div (shapeCast S2048x1 (multiReduction (F := Ideal) .add [1] S2048 (mulf x0 x1) 0x00000000#32 reduces_S2048x512_S2048 (.inl rfl) rfl) shapeCasts_S2048_S2048x1 (ix2 y (0 : Fin 1)))
      (max (Ideal.sqrt (shapeCast S2048x1 (multiReduction (F := Ideal) .add [1] S2048 (mulf x0 x0) 0x00000000#32 reduces_S2048x512_S2048 (.inl rfl) rfl) shapeCasts_S2048_S2048x1 (ix2 y (0 : Fin 1)))
          * Ideal.sqrt (shapeCast S2048x1 (multiReduction (F := Ideal) .add [1] S2048 (mulf x1 x1) 0x00000000#32 reduces_S2048x512_S2048 (.inl rfl) rfl) shapeCasts_S2048_S2048x1 (ix2 y (0 : Fin 1))))
        (lit 0x358637BD#32)) = _
  rw [laneSum_col, laneSum_col, laneSum_col]
  rfl

/-- Column 0 of the body's result at row y: the label number times the positive-pair term of the row's cosine. -/
theorem pos_row (x0 x1 : Vec Ideal S2048x512 .f32) (x2 : Vec Ideal S2048x1 .f32) (y : Fin 2048) :
    k0_pay2 (F := Ideal) (k0_pay5 x0 x1) x2 (ix2 y (0 : Fin 1))
      = x2 (ix2 y (0 : Fin 1)) * posTerm (rowCos (fun k => x0 (ix2 y k)) (fun k => x1 (ix2 y k))) := by
  have hc := cos_row x0 x1 y
  unfold k0_pay2 k0_pay1 k0_pay5
  rw [shapeCast_self]
  show x2 (ix2 y (0 : Fin 1)) * (lit 0x40800000#32
      * softplus' (lit 0xBF000000#32 * (k0_pay4 (F := Ideal) x0 x1 (ix2 y (0 : Fin 1)) - lit 0x3F000000#32))) = _
  rw [hc, softplus'_eq]
  rfl

/-- Column 1 at row y: one minus the label number, times the negative-pair term. -/
theorem neg_row (x0 x1 : Vec Ideal S2048x512 .f32) (x2 : Vec Ideal S2048x1 .f32) (y : Fin 2048) :
    k0_pay3 (F := Ideal) (k0_pay6 x0 x1) (Scalar.ofBits .f32 0x00000000#32) (k0_pay7 x0 x1) x2 (ix2 y (0 : Fin 1))
      = (lit 0x3F800000#32 - x2 (ix2 y (0 : Fin 1))) * negTerm (rowCos (fun k => x0 (ix2 y k)) (fun k => x1 (ix2 y k))) := by
  have hc := cos_row x0 x1 y
  unfold k0_pay3 k0_pay1 k0_pay7 k0_pay6
  rw [shapeCast_self]
  show (lit 0x3F800000#32 - x2 (ix2 y (0 : Fin 1))) * (lit 0x3D23D70A#32
      * softplus' (lit 0x42480000#32 * (k0_pay4 (F := Ideal) x0 x1 (ix2 y (0 : Fin 1)) - lit 0x40000000#32))) = _
  rw [hc, softplus'_eq]
  rfl

/-- The 2048 × 2 block the body leaves, entry by entry. -/
def blockOf (x0 x1 : Vec Ideal S2048x512 .f32) (x2 : Vec Ideal S2048x1 .f32) : Vec Ideal S2048x2 .f32 := fun j =>
  if (j 1).val = 0 then
    x2 (ix2 (j 0) (0 : Fin 1)) * posTerm (rowCos (fun k => x0 (ix2 (j 0) k)) (fun k => x1 (ix2 (j 0) k)))
  else
    (lit 0x3F800000#32 - x2 (ix2 (j 0) (0 : Fin 1))) * negTerm (rowCos (fun k => x0 (ix2 (j 0) k)) (fun k => x1 (ix2 (j 0) k)))

/-- A column index of 2048 entries is (its row, 0). -/
theorem col_idx (x : S2048x1.Idx) : ∃ y : Fin 2048, x = ix2 y (0 : Fin 1) :=
  ⟨x 0, funext fun a => by
    match a with
    | ⟨0, _⟩ => rfl
    | ⟨1, h1⟩ => exact Fin.ext (by have h := (x ⟨1, h1⟩).isLt; change (x ⟨1, h1⟩).val < 1 at h; show (x ⟨1, h1⟩).val = 0; omega)⟩

/-- The body's two column stores together are that block. -/
theorem out_block (x0 x1 : Vec Ideal S2048x512 .f32) (x2 : Vec Ideal S2048x1 .f32) :
    out0_3 (F := Ideal) x0 x1 x2 = blockOf x0 x1 x2 := by
  funext j
  unfold out0_3
  refine View.canon_apply_of_pieces (blockOf x0 x1 x2) _ (fun p hp x => ?_) j (cover0_3 _ _ j)
  simp only [List.mem_cons, List.mem_nil_iff, or_false] at hp
  have hz : (![0, 0] : Fin 2 → Nat) = fun _ => 0 := funext fun a => by fin_cases a <;> rfl
  rcases hp with rfl | rfl
  · -- the store into column 1
    dsimp only
    obtain ⟨y, rfl⟩ := col_idx x
    have e0 : r0_3.emb (ix2 y (0 : Fin 1)) (0 : Fin 2) = y := Fin.ext (by show 0 + 1 * y.val = y.val; omega)
    have e1 : (r0_3.emb (ix2 y (0 : Fin 1)) (1 : Fin 2)).val = 1 := rfl
    rw [View.ld_unit_zero (S := S2048x512) hz, View.ld_unit_zero (S := S2048x512) hz, View.ld_unit_zero (S := S2048x1) hz, neg_row]
    unfold blockOf
    rw [if_neg (by rw [e1]; decide), e0]
  · -- the store into column 0
    dsimp only
    obtain ⟨y, rfl⟩ := col_idx x
    have e0 : r0_2.emb (ix2 y (0 : Fin 1)) (0 : Fin 2) = y := Fin.ext (by show 0 + 1 * y.val = y.val; omega)
    have e1 : (r0_2.emb (ix2 y (0 : Fin 1)) (1 : Fin 2)).val = 0 := rfl
    rw [View.ld_unit_zero (S := S2048x512) hz, View.ld_unit_zero (S := S2048x512) hz, View.ld_unit_zero (S := S2048x1) hz, pos_row]
    unfold blockOf
    rw [if_pos e1, e0]

end Cert.KernelIdeal.Rows

end
-- ==== Proof.KernelArray.lean ====
/-
  The kernel's N × 2 array after the 64 grid points, entry by entry (N = 131072).

  Point t handles rows 2048·t … 2048·t + 2047 of the three inputs and writes the same rows of the output, so the
  output array ends with, in row r, column 0: μ_r · pos d_r and column 1: (1 − μ_r) · neg d_r, where μ is the column of
  label numbers the host computed before the call and d_r the cosine of row r of the two matrices.
-/
import proofs.«417344_j4252017623385_1_alg».proof.Proof.KernelRows
import Idealize.ShloMosaic.Lib.Pipeline.Value

set_option maxRecDepth 16384

noncomputable section

namespace Cert.KernelIdeal.Whole

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Rows Cert.Deviance

variable (m : (ℓ : Loc nD τ sig) → Buf (Elt Ideal) ℓ) (ρ : Dev nD → PrngReg)

/-- The two columns of per-row contributions over the whole batch. -/
def lossCols (a b : Vec Ideal S131072x512 .f32) (mu : Vec Ideal S131072x1 .f32) : Vec Ideal S131072x2 .f32 := fun i =>
  if (i 1).val = 0 then
    mu (ix2 (i 0) (0 : Fin 1)) * posTerm (rowCos (fun k => a (ix2 (i 0) k)) (fun k => b (ix2 (i 0) k)))
  else
    (lit 0x3F800000#32 - mu (ix2 (i 0) (0 : Fin 1))) * negTerm (rowCos (fun k => a (ix2 (i 0) k)) (fun k => b (ix2 (i 0) k)))

/-- A block whose rows are rows of the arrays, and whose column is the array's, is the array's entry. -/
theorem block_eq_cols (X0 X1 : Vec Ideal S2048x512 .f32) (X2 : Vec Ideal S2048x1 .f32)
    (A B : Vec Ideal S131072x512 .f32) (M : Vec Ideal S131072x1 .f32) (j : S2048x2.Idx) (i : S131072x2.Idx)
    (h1 : (i 1).val = (j 1).val)
    (hA : ∀ k : Fin 512, X0 (ix2 (j 0) k) = A (ix2 (i 0) k)) (hB : ∀ k : Fin 512, X1 (ix2 (j 0) k) = B (ix2 (i 0) k))
    (hM : X2 (ix2 (j 0) (0 : Fin 1)) = M (ix2 (i 0) (0 : Fin 1))) :
    blockOf X0 X1 X2 j = lossCols A B M i := by
  unfold blockOf lossCols
  rw [h1, hM, funext hA, funext hB]

/-- Every window's block index at point t is (t, 0): decided over the 64 points. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- What point t writes back is block t of `lossCols` of the arrays as the region finds them. -/
theorem flushed_eq (c : Dev nD) (t : Fin cfg0.N) :
    (dats m 0 c).flushed 3 t
      = ((cfg0.win 3).blk t).view.read (Elt Ideal) (lossCols (V m c main_arg0) (V m c main_arg1) (V m c main_v3)) := by
  show (cfg0.win 3).cut (grid0.coords t) ((dats m 0 c).after 3 t) = _
  rw [after0_3, out_block]
  obtain ⟨e0, e1, e2, e3, e4, e5, e6, e7⟩ := idx_facts t
  funext j
  show blockOf (iblk m c 0 t) (iblk m c 1 t) (iblk m c 2 t) j
    = lossCols (V m c main_arg0) (V m c main_arg1) (V m c main_v3) (((cfg0.win 3).blk t).view.emb j)
  refine block_eq_cols _ _ _ _ _ _ j _ ?_ (fun k => ?_) (fun k => ?_) ?_
  · show win0_3.index t (1 : Fin 2) * 2 + 1 * (j 1).val = (j 1).val
    rw [e7]; omega
  · show V m c main_arg0 (((cfg0.win 0).blk t).view.emb (ix2 (j 0) k)) = V m c main_arg0 (ix2 ((((cfg0.win 3).blk t).view.emb j) 0) k)
    refine congrArg (V m c main_arg0) (funext fun a => Fin.ext ?_)
    match a with
    | ⟨0, _⟩ => show win0_0.index t (0 : Fin 2) * 2048 + 1 * (j 0).val = win0_3.index t (0 : Fin 2) * 2048 + 1 * (j 0).val; rw [e0, e6]
    | ⟨1, _⟩ => show win0_0.index t (1 : Fin 2) * 512 + 1 * k.val = k.val; rw [e1]; omega
  · show V m c main_arg1 (((cfg0.win 1).blk t).view.emb (ix2 (j 0) k)) = V m c main_arg1 (ix2 ((((cfg0.win 3).blk t).view.emb j) 0) k)
    refine congrArg (V m c main_arg1) (funext fun a => Fin.ext ?_)
    match a with
    | ⟨0, _⟩ => show win0_1.index t (0 : Fin 2) * 2048 + 1 * (j 0).val = win0_3.index t (0 : Fin 2) * 2048 + 1 * (j 0).val; rw [e2, e6]
    | ⟨1, _⟩ => show win0_1.index t (1 : Fin 2) * 512 + 1 * k.val = k.val; rw [e3]; omega
  · show V m c main_v3 (((cfg0.win 2).blk t).view.emb (ix2 (j 0) (0 : Fin 1))) = V m c main_v3 (ix2 ((((cfg0.win 3).blk t).view.emb j) 0) (0 : Fin 1))
    refine congrArg (V m c main_v3) (funext fun a => Fin.ext ?_)
    match a with
    | ⟨0, _⟩ => show win0_2.index t (0 : Fin 2) * 2048 + 1 * (j 0).val = win0_3.index t (0 : Fin 2) * 2048 + 1 * (j 0).val; rw [e4, e6]
    | ⟨1, _⟩ => show win0_2.index t (1 : Fin 2) * 1 + 1 * 0 = 0; rw [e5]

/-- An index of the output array is in point t's block iff each coordinate is in the block's range. -/
theorem mem_blk (t : Fin cfg0.N) (i : S131072x2.Idx) :
    i ∈ ((cfg0.win 3).blk t).view.set ↔ ∀ a : Fin 2, win0_3.index t a * S2048x2.size a ≤ (i a).val ∧ (i a).val < win0_3.index t a * S2048x2.size a + S2048x2.size a := by
  show i ∈ ((View.whole main_v4).slice (win0_3.rect t)).set ↔ _
  rw [View.set_slice_whole, Rect.mem_set_unit]
  exact Iff.rfl

/-- The output array after the run: row r is covered by point r / 2048. -/
theorem final (c : Dev nD) :
    (dats m 0 c).arrAt 3 cfg0.N = lossCols (V m c main_arg0) (V m c main_arg1) (V m c main_v3) :=
  (dats m 0 c).arrAt_eq_of_cover 3 _ (fun t _ => flushed_eq m c t) fun i => by
    have hi0 : (i 0).val < 131072 := (i 0).isLt
    have hi1 : (i 1).val < 2 := (i 1).isLt
    obtain ⟨t, ht⟩ : ∃ t : Fin cfg0.N, t.val = (i 0).val / 2048 :=
      ⟨⟨(i 0).val / 2048, by rw [show cfg0.N = 64 from N_0]; omega⟩, rfl⟩
    obtain ⟨e0, e1, e2, e3, e4, e5, e6, e7⟩ := idx_facts t
    refine ⟨t, flush0_3 t, ?_⟩
    rw [mem_blk]
    intro a
    match a with
    | ⟨0, _⟩ =>
      show win0_3.index t (0 : Fin 2) * 2048 ≤ (i 0).val ∧ (i 0).val < win0_3.index t (0 : Fin 2) * 2048 + 2048
      rw [e6, ht]; omega
    | ⟨1, _⟩ =>
      show win0_3.index t (1 : Fin 2) * 2 ≤ (i 1).val ∧ (i 1).val < win0_3.index t (1 : Fin 2) * 2 + 2
      rw [e7]; omega

end Cert.KernelIdeal.Whole

end
-- ==== Proof.Totals.lean ====
/-
  The loss from the two vectors of per-row contributions and the labels: the sum of the first vector over the number of
  positive rows, plus the sum of the second over the number of the other rows, each number kept at least one. The number of
  positive rows is the sum of the vector `T` of 32-bit words (the labels, or the indicators of "label = 1"); the batch has
  131072 rows.
-/
import Idealize.ShloMosaic.PureOps.Ideal
import Idealize.ShloMosaic.PureOps.Reduce
import Idealize.ShloMosaic.Lib.ValueIdx

noncomputable section

namespace Cert.Totals

open Idealize.ShloMosaic

/-- A vector with one entry per row of the batch, and a scalar. -/
abbrev SN : Shape := ⟨1, ![131072]⟩
abbrev S0 : Shape := ⟨0, ![]⟩

/-- sum P / max (count, 1) + sum Q / max (131072 − count, 1), count = sum T. -/
def lossOf (hr : SN.ReducesTo [0] S0) (h0 : 0 < S0.numel) (P Q : FVec Ideal SN .f32) (T : IVec SN 32) : FVec Ideal S0 .f32 :=
  addf
    (Host.divf (Host.reduceAdd (F := Ideal) P (constant (F := Ideal) S0 .f32 0x00000000#32) hr h0)
      (sitofp (F := Ideal) .f32 (maxsi (Host.reduce IntOp.addi T (constantI S0 32 0#32) hr h0) (constantI S0 32 1#32))))
    (Host.divf (Host.reduceAdd (F := Ideal) Q (constant (F := Ideal) S0 .f32 0x00000000#32) hr h0)
      (sitofp (F := Ideal) .f32 (maxsi (subi (constantI S0 32 131072#32) (Host.reduce IntOp.addi T (constantI S0 32 0#32) hr h0)) (constantI S0 32 1#32))))

end Cert.Totals

end
-- ==== Proof.KernelRun.lean ====
/-
  The kernel program's run, read: after the 64 grid points the host slices the two columns off the N × 2 array, sums each, counts
  the positive rows by summing the labels, and returns sum₀ / max (count, 1) + sum₁ / max (N − count, 1). With the label
  numbers μ_r ∈ {0, 1} the host computed before the call (1 exactly where the label is 1), column 0 is pos d_r where the
  label is 1 and 0 elsewhere, and column 1 is 0 where the label is 1 and neg d_r elsewhere.
-/
import proofs.«417344_j4252017623385_1_alg».proof.Proof.KernelArray
import proofs.«417344_j4252017623385_1_alg».proof.Proof.Totals
import Idealize.ShloMosaic.Lib.Pipeline.Value
import Idealize.ShloMosaic.Lib.StableHlo.Run

set_option maxRecDepth 16384

noncomputable section

namespace Cert.KernelIdeal.Whole

open Idealize.ShloMosaic Idealize.ShloMosaic.TcCoe Idealize.ShloMosaic.ValueIdx Idealize.SL.Sem Idealize.ShloMosaic.StableHlo
open Idealize.ShloMosaic.Pipeline (Dat)
open Cert.KernelIdeal Cert.KernelIdeal.Gen Cert.KernelIdeal.Rows Cert.Deviance Cert.Totals

variable (m : (ℓ : Loc nD τ sig) → Buf (Elt Ideal) ℓ) (ρ : Dev nD → PrngReg)

/-- The column of label numbers: 1 where the label is 1, else 0, as floats. -/
def maskCol (tg : IVec S131072 32) : Vec Ideal S131072x1 .f32 :=
  shapeCast S131072x1 (uitofp (F := Ideal) .f32 (cmpi .eq tg (broadcastInDim S131072 ![] bcast_S_S131072 (constantI S_ 32 1#32))))
    shapeCasts_S131072_S131072x1

/-- The host lines before the call leave that column in the call's third operand. -/
theorem mask_col (c : Dev nD) : (V m c main_v3 : Vec Ideal S131072x1 .f32) = maskCol (m ((c : Thread nD τ).loc main_arg2)) := by
  unfold maskCol
  show StableHlo.after hostOps0 (fun b => m (c, b)) (Proc.devRef .tc main_v3) = _
  after_results
  rfl

/-- Entry (r, 0) of the column is the indicator bit of "label r = 1", read as a number. -/
theorem maskCol_apply (tg : IVec S131072 32) (r : Fin 131072) :
    maskCol tg (ix2 r (0 : Fin 1)) = (((IntOp.cmpi .eq (tg (ix1 r)) 1#32).toNat : ℝ) : EReal) := by
  unfold maskCol
  refine (shapeCast_apply _ shapeCasts_S131072_S131072x1 (ix2 r (0 : Fin 1)) (ix1 r) ?_).trans ?_
  · rw [Shape.rowMajor_val_one, Shape.rowMajor_val_two]; simp
  · show (((IntOp.cmpi .eq (tg (ix1 r)) (broadcastInDim S131072 ![] bcast_S_S131072 (constantI S_ 32 1#32) (ix1 r))).toNat : ℝ) : EReal) = _
    rw [broadcastInDim_apply _ bcast_S_S131072 (constantI S_ 32 1#32) (ix1 r) (fun a => a.elim0) (fun a => a.elim0)]
    rfl

/-- The two columns, with the label numbers spelt out. -/
theorem cols_pos (a b : Vec Ideal S131072x512 .f32) (tg : IVec S131072 32) (r : Fin 131072) :
    lossCols a b (maskCol tg) (ix2 r (0 : Fin 2))
      = Scalar.select (IntOp.cmpi .eq (tg (ix1 r)) 1#32) (posTerm (rowCos (fun k => a (ix2 r k)) (fun k => b (ix2 r k)))) 0 := by
  unfold lossCols
  exact (if_pos (show (ix2 r (0 : Fin 2) (1 : Fin 2)).val = 0 from rfl)).trans
    ((congrArg (· * _) (maskCol_apply tg r)).trans (mask_mul _ _))

theorem cols_neg (a b : Vec Ideal S131072x512 .f32) (tg : IVec S131072 32) (r : Fin 131072) :
    lossCols a b (maskCol tg) (ix2 r (1 : Fin 2))
      = Scalar.select (IntOp.cmpi .eq (tg (ix1 r)) 1#32) 0 (negTerm (rowCos (fun k => a (ix2 r k)) (fun k => b (ix2 r k)))) := by
  unfold lossCols
  exact (if_neg (show ¬ (ix2 r (1 : Fin 2) (1 : Fin 2)).val = 0 from Nat.one_ne_zero)).trans
    ((congrArg (fun z => (lit 0x3F800000#32 - z) * _) (maskCol_apply tg r)).trans (comask_mul _ _))

/-- Column q of an N × 2 array, sliced off and flattened, is the array read at (r, q). -/
theorem slice_col0 (X : Vec Ideal S131072x2 .f32) (i : S131072.Idx) :
    shapeCast S131072 (extractStridedSlice S131072x1 ![0, 0] X slices_S131072x2_S131072x1_0_0) shapeCasts_S131072x1_S131072 i
      = X (ix2 (i 0) (0 : Fin 2)) := by
  refine (shapeCast_apply _ shapeCasts_S131072x1_S131072 i (ix2 (i 0) (0 : Fin 1)) ?_).trans ?_
  · rw [Shape.rowMajor_val_one, Shape.rowMajor_val_two]; simp
  · refine extractStridedSlice_apply _ X _ (ix2 (i 0) (0 : Fin 1)) (ix2 (i 0) (0 : Fin 2)) fun a => ?_
    match a with
    | ⟨0, _⟩ => show (i 0).val = 0 + (i 0).val; omega
    | ⟨1, _⟩ => rfl

theorem slice_col1 (X : Vec Ideal S131072x2 .f32) (i : S131072.Idx) :
    shapeCast S131072 (extractStridedSlice S131072x1 ![0, 1] X slices_S131072x2_S131072x1_0_1) shapeCasts_S131072x1_S131072 i
      = X (ix2 (i 0) (1 : Fin 2)) := by
  refine (shapeCast_apply _ shapeCasts_S131072x1_S131072 i (ix2 (i 0) (0 : Fin 1)) ?_).trans ?_
  · rw [Shape.rowMajor_val_one, Shape.rowMajor_val_two]; simp
  · refine extractStridedSlice_apply _ X _ (ix2 (i 0) (0 : Fin 1)) (ix2 (i 0) (1 : Fin 2)) fun a => ?_
    match a with
    | ⟨0, _⟩ => show (i 0).val = 0 + (i 0).val; omega
    | ⟨1, _⟩ => rfl

/-- The output array as the host lines after the call find it. -/
theorem out_arr (c : Dev nD) :
    Pipeline.withArrays (cfgs 0).spec c (V0 m c) (fun w => (dats m 0 c).arrAt w (cfgs 0).N) (Proc.devRef .tc main_v4)
      = lossCols (m ((c : Thread nD τ).loc main_arg0)) (m ((c : Thread nD τ).loc main_arg1)) (maskCol (m ((c : Thread nD τ).loc main_arg2))) :=
  ((Pipeline.withArrays_arr spec0 launch0.win.arr_inj c _ _ 3).trans (final m c)).trans (by
    rw [V_main_arg0, V_main_arg1, mask_col])

/-- The labels as those lines find them: untouched. -/
theorem labels_kept (c : Dev nD) :
    Pipeline.withArrays (cfgs 0).spec c (V0 m c) (fun w => (dats m 0 c).arrAt w (cfgs 0).N) (Proc.devRef .tc main_arg2)
      = m ((c : Thread nD τ).loc main_arg2) :=
  (Pipeline.withArrays_of_ne _ c (V0 m c) _ main_arg2 (by exact (by decide : ∀ w, Pipeline.arrRef spec0 w ≠ main_arg2))).trans (V_main_arg2 m c)

/-- The kernel program's result: the loss over the per-row contributions, the positive rows counted by summing the labels. -/
def kernelLoss (a b : Vec Ideal S131072x512 .f32) (tg : IVec S131072 32) : Vec Ideal S_ .f32 :=
  lossOf reducesTo_S131072_S_d0 h_S_
    (fun i => Scalar.select (IntOp.cmpi .eq (tg (ix1 (i 0))) 1#32) (posTerm (rowCos (fun k => a (ix2 (i 0) k)) (fun k => b (ix2 (i 0) k)))) 0)
    (fun i => Scalar.select (IntOp.cmpi .eq (tg (ix1 (i 0))) 1#32) 0 (negTerm (rowCos (fun k => a (ix2 (i 0) k)) (fun k => b (ix2 (i 0) k)))))
    tg

set_option maxHeartbeats 4000000 in
/-- What the host lines after the call leave in the result. -/
theorem tail_eq (c : Dev nD) :
    (Pipeline.afterTail₀ cfgs (dats m) 0 (V0 m) [hostOps1] c main_v19 : Vec Ideal S_ .f32)
      = kernelLoss (m ((c : Thread nD τ).loc main_arg0)) (m ((c : Thread nD τ).loc main_arg1)) (m ((c : Thread nD τ).loc main_arg2)) := by
  unfold Pipeline.afterTail₀
  simp only [List.flatten_cons, List.flatten_nil, List.append_nil]
  after_results
  rw [out_arr m c, labels_kept m c]
  unfold kernelLoss
  show lossOf reducesTo_S131072_S_d0 h_S_
      (fun i => shapeCast S131072 (extractStridedSlice S131072x1 ![0, 0] (lossCols _ _ _) slices_S131072x2_S131072x1_0_0) shapeCasts_S131072x1_S131072 i)
      (fun i => shapeCast S131072 (extractStridedSlice S131072x1 ![0, 1] (lossCols _ _ _) slices_S131072x2_S131072x1_0_1) shapeCasts_S131072x1_S131072 i)
      _ = _
  refine (congrArg (fun P => lossOf reducesTo_S131072_S_d0 h_S_ P _ _)
    (funext fun i => (slice_col0 _ i).trans (cols_pos _ _ _ (i 0)))).trans ?_
  exact congrArg (fun Q => lossOf reducesTo_S131072_S_d0 h_S_ _ Q _)
    (funext fun i => (slice_col1 _ i).trans (cols_neg _ _ _ (i 0)))

/-- The run, read: the result at `kernelLoss` of the launch contents of the three arguments, which end unchanged. -/
theorem run : θ_run defs (onTc (τ := τ) (main (F := Ideal))) ⟨m, fun _ => 0, ρ⟩ fun r => ∀ c : Dev nD,
      r.2.mem ((c.tc : Thread nD τ).loc main_v19)
        = kernelLoss (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v19 (Pipeline.mem_restRefs_of main_v19 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.Whole

end
-- ==== Proof.RefRows.lean ====
/-
  The reference, row by row on the extended reals: its cosine of row r of the two matrices, and what row r adds to
  each of its two sums — pos d_r where the label is 1 and 0 elsewhere, 0 where the label is 1 and neg d_r elsewhere.
  A sum over the 512 entries of a row from the initial value 0 is the finite sum of the row.
-/
import proofs.«417344_j4252017623385_1_alg».proof.Proof.Gen.ReferenceIdeal.Read
import proofs.«417344_j4252017623385_1_alg».proof.Proof.Deviance
import Idealize.ShloMosaic.Lib.ValueIdx
import Idealize.ShloMosaic.PureOps.Ideal.Laws

noncomputable section

namespace Cert.ReferenceIdeal.Rows

open Idealize.ShloMosaic Idealize.ShloMosaic.ValueIdx Cert.ReferenceIdeal Cert.ReferenceIdeal.Gen Cert.ReferenceIdeal.Read Cert.Deviance

/-- The host's sum along the rows of an N × 512 matrix from 0: entry r is the sum of row r. -/
theorem rowSum (v : FVec Ideal S131072x512 .f32) (r : Fin 131072) :
    Host.reduceAdd (F := Ideal) v (constant (F := Ideal) S_ .f32 0x00000000#32) reducesTo_S131072x512_S131072_d1 h_S_ (ix1 r)
      = ∑ k : Fin 512, v (ix2 r k) := by
  simp only [Host.reduceAdd, Ideal.hostReduceAdd_def]
  rw [Ideal.hostReduceAdd_single reducesTo_S131072x512_S131072_d1 (by decide)]
  refine (congrArg (· + _) (show constant (F := Ideal) S_ .f32 0x00000000#32 (Shape.Idx.first h_S_) = 0 from Ideal.ofBits_zero_f32)).trans ?_
  rw [zero_add]
  refine Finset.sum_congr rfl fun k _ => congrArg v (funext fun a => Fin.ext ?_)
  match a with
  | ⟨0, _⟩ => rfl
  | ⟨1, _⟩ => rfl

/-- The reference's cosine of row pair r. -/
theorem cos_row (x0 x1 : FVec Ideal S131072x512 .f32) (r : Fin 131072) :
    val_main_v7 (F := Ideal) x0 x1 (ix1 r) = rowCos (fun k => x0 (ix2 r k)) (fun k => x1 (ix2 r k)) := by
  have h1 : ∀ k : Fin 512, idx_main_v1 (ix1 r) k = ix2 r k := fun k => funext fun a => by
    match a with
    | ⟨0, _⟩ => rfl
    | ⟨1, _⟩ => rfl
  have h2 : ∀ k : Fin 512, idx_main_call0_v1 (ix1 r) k = ix2 r k := h1
  have h3 : ∀ k : Fin 512, idx_main_call1_v1 (ix1 r) k = ix2 r k := h1
  simp only [val_main_v7_apply, val_main_v1_apply, val_main_v6_apply, val_main_v4_apply, val_main_v2_apply, val_main_v3_apply,
    val_main_call0_v1_apply, val_main_call1_v1_apply, val_main_v5_apply, val_main_v0_apply, val_main_call0_v0_apply,
    val_main_call1_v0_apply, val_main_cst_apply, val_main_call0_cst_apply, val_main_call1_cst_apply, val_main_cst_0_apply,
    h1, h2, h3, Ideal.ofBits_def, Ideal.ofBits_zero_f32, zero_add]
  rfl

/-- What row r adds to the reference's first sum. -/
theorem pos_row (x0 x1 : FVec Ideal S131072x512 .f32) (x2 : IVec S131072 32) (r : Fin 131072) :
    val_main_v27 (F := Ideal) x0 x1 x2 (ix1 r)
      = Scalar.select (IntOp.cmpi .eq (x2 (ix1 r)) 1#32) (posTerm (rowCos (fun k => x0 (ix2 r k)) (fun k => x1 (ix2 r k)))) 0 := by
  have hc := cos_row x0 x1 r
  simp only [val_main_v27_apply, val_main_v23_apply, val_main_v22_apply, val_main_c_apply, val_main_v14_apply, val_main_v13_apply,
    val_main_cst_3_apply, val_main_v12_apply, val_main_call2_v4_apply, val_main_call2_v6_apply, val_main_call2_v11_apply,
    val_main_call2_v3_apply, val_main_call2_v2_apply, val_main_call2_cst_apply, val_main_call2_v5_apply, val_main_call2_v1_apply,
    val_main_call2_v0_apply, val_main_call2_v10_apply, val_main_call2_v9_apply, val_main_call2_v8_apply, val_main_call2_v7_apply,
    val_main_v11_apply, val_main_v10_apply, val_main_cst_2_apply, val_main_v9_apply, val_main_v8_apply, val_main_cst_1_apply,
    val_main_call4_v1_apply, val_main_call4_v0_apply, val_main_cst_9_apply]
  rw [hc, ← lit_zero]
  rfl

/-- What row r adds to the reference's second sum. -/
theorem neg_row (x0 x1 : FVec Ideal S131072x512 .f32) (x2 : IVec S131072 32) (r : Fin 131072) :
    val_main_v32 (F := Ideal) x0 x1 x2 (ix1 r)
      = Scalar.select (IntOp.cmpi .eq (x2 (ix1 r)) 1#32) 0 (negTerm (rowCos (fun k => x0 (ix2 r k)) (fun k => x1 (ix2 r k)))) := by
  have hc := cos_row x0 x1 r
  simp only [val_main_v32_apply, val_main_v23_apply, val_main_v22_apply, val_main_c_apply, val_main_v21_apply, val_main_v20_apply,
    val_main_cst_6_apply, val_main_v19_apply, val_main_call3_v4_apply, val_main_call3_v6_apply, val_main_call3_v11_apply,
    val_main_call3_v3_apply, val_main_call3_v2_apply, val_main_call3_cst_apply, val_main_call3_v5_apply, val_main_call3_v1_apply,
    val_main_call3_v0_apply, val_main_call3_v10_apply, val_main_call3_v9_apply, val_main_call3_v8_apply, val_main_call3_v7_apply,
    val_main_v18_apply, val_main_v17_apply, val_main_cst_5_apply, val_main_v16_apply, val_main_v15_apply, val_main_cst_4_apply,
    val_main_call5_v1_apply, val_main_call5_v0_apply, val_main_cst_12_apply]
  rw [hc, ← lit_zero]
  rfl

end Cert.ReferenceIdeal.Rows

end
-- ==== Proof.Labels.lean ====
/-
  The labels under the precondition. The precondition's last conjunct says every label is 0 or 1. For such labels the
  indicator of "label = 1", widened to a 32-bit word, is the label itself, so the two ways of counting the positive rows
  (summing the labels, summing the indicators) sum one and the same vector.
-/
import proofs.«417344_j4252017623385_1_alg».proof.Pre_finite_inputs
import proofs.«417344_j4252017623385_1_alg».proof.Proof.Gen.Pre_finite_inputs
import Idealize.ShloMosaic.Lib.ReduceAll
import Idealize.ShloMosaic.Lib.StableHlo.Predicate
import Idealize.ShloMosaic.Lib.ValueIdx

noncomputable section

namespace Cert.Labels

open Idealize.ShloMosaic Idealize.ShloMosaic.ValueIdx Cert.Pre_finite_inputs

instance : Subsingleton S_.Idx := ⟨fun a b => funext fun d => d.elim0⟩

variable {F : FTy → Type} [FloatOps F]

/-- Under the precondition every label is 0 or 1. -/
theorem binary_of_pre (a b : FVec F S131072x512 .f32) (tg : IVec S131072 32)
    (h : Cert.Pre_finite_inputs.fn (F := F) a b tg = fun _ => 1#1) (i : S131072.Idx) : tg i = 0#32 ∨ tg i = 1#32 := by
  have h0 := congrFun h ix0
  dsimp only [Cert.Pre_finite_inputs.fn] at h0
  obtain ⟨-, h2⟩ := IntOp.andi_eq_one.1 h0
  have h3 := Host.reduce_andi_all _ _ _ _ _ h2 i
  rcases IntOp.ori_eq_one.1 h3 with h4 | h4
  · exact Or.inl (StableHlo.Predicate.cmpi_eq_iff.1 h4)
  · exact Or.inr (StableHlo.Predicate.cmpi_eq_iff.1 h4)

/-- For a label that is 0 or 1, the widened indicator of "label = 1" is the label. -/
theorem indicator_eq (w : BitVec 32) (hw : w = 0#32 ∨ w = 1#32) : (IntOp.cmpi .eq w 1#32).setWidth 32 = w := by
  rcases hw with rfl | rfl <;> decide

end Cert.Labels

end
-- ==== Proof.Bridge.lean ====
/-
  The two programs compute one loss. The reference sums, over the rows, pos d_r where the label is 1 (else 0) and neg d_r
  where it is not (else 0), and counts the positive rows by summing the indicators of "label = 1"; the kernel program sums the
  same two vectors and counts by summing the labels themselves. For labels in {0, 1} an indicator is its label, so the counts
  are sums of one vector, and the two results are the same expression.
-/
import proofs.«417344_j4252017623385_1_alg».proof.Proof.KernelRun
import proofs.«417344_j4252017623385_1_alg».proof.Proof.RefRows
import proofs.«417344_j4252017623385_1_alg».proof.Proof.Labels
import proofs.«417344_j4252017623385_1_alg».proof.Proof.Totals

noncomputable section

namespace Cert.Bridge

open Idealize.ShloMosaic Idealize.ShloMosaic.ValueIdx Cert.Deviance Cert.Totals
open Cert.ReferenceIdeal.Read

/-- The reference's result is the loss over its two vectors of contributions, the positive rows counted by summing the
    indicator words. -/
theorem ref_loss (x0 x1 : FVec Ideal Cert.ReferenceIdeal.S131072x512 .f32) (x2 : IVec Cert.ReferenceIdeal.S131072 32) :
    val_main_v37 (F := Ideal) x0 x1 x2
      = lossOf Cert.ReferenceIdeal.Gen.reducesTo_S131072_S_d0 Cert.ReferenceIdeal.Gen.h_S_
          (val_main_v27 (F := Ideal) x0 x1 x2) (val_main_v32 (F := Ideal) x0 x1 x2) (val_main_v24 (F := Ideal) x2) := by
  unfold val_main_v37 val_main_v31 val_main_v36 val_main_v28 val_main_v33 val_main_v30 val_main_v35 val_main_v29 val_main_v34
    val_main_v26 val_main_v25 val_main_cst_10 val_main_cst_13 val_main_c_7 val_main_c_8 val_main_c_11 val_main_c_14 lossOf
  rfl

/-- For labels in {0, 1} the reference's result is the kernel program's. -/
theorem ref_eq_kernel (x0 x1 : FVec Ideal Cert.ReferenceIdeal.S131072x512 .f32) (x2 : IVec Cert.ReferenceIdeal.S131072 32)
    (hb : ∀ i, x2 i = 0#32 ∨ x2 i = 1#32) :
    val_main_v37 (F := Ideal) x0 x1 x2 = Cert.KernelIdeal.Whole.kernelLoss x0 x1 x2 := by
  rw [ref_loss]
  unfold Cert.KernelIdeal.Whole.kernelLoss
  have hP : val_main_v27 (F := Ideal) x0 x1 x2
      = fun i => Scalar.select (IntOp.cmpi .eq (x2 (ix1 (i 0))) 1#32) (posTerm (rowCos (fun k => x0 (ix2 (i 0) k)) (fun k => x1 (ix2 (i 0) k)))) 0 :=
    funext fun i => by
      obtain ⟨r, rfl⟩ : ∃ r : Fin 131072, i = ix1 r := ⟨i 0, eq_ix1 i⟩
      exact Cert.ReferenceIdeal.Rows.pos_row x0 x1 x2 r
  have hQ : val_main_v32 (F := Ideal) x0 x1 x2
      = fun i => Scalar.select (IntOp.cmpi .eq (x2 (ix1 (i 0))) 1#32) 0 (negTerm (rowCos (fun k => x0 (ix2 (i 0) k)) (fun k => x1 (ix2 (i 0) k)))) :=
    funext fun i => by
      obtain ⟨r, rfl⟩ : ∃ r : Fin 131072, i = ix1 r := ⟨i 0, eq_ix1 i⟩
      exact Cert.ReferenceIdeal.Rows.neg_row x0 x1 x2 r
  have hT : val_main_v24 (F := Ideal) x2 = x2 := funext fun i => by
    rw [val_main_v24_apply, val_main_v23_apply, val_main_v22_apply, val_main_c_apply]
    exact Cert.Labels.indicator_eq _ (hb i)
  rw [hP, hQ, hT]

end Cert.Bridge

end
-- ==== Proof.lean ====
/-
  The certificate of the binomial-deviance loss kernel against its jnp reference, on the extended reals.

  Both programs take two batches of 131072 rows of 512 floats and a vector of 131072 integer labels, assumed to be 0 or 1
  (the precondition: finite floats, binary labels). Per row r they form the cosine d_r of the two rows, with the product of
  the norms kept at least 1e-6, and the terms pos d_r = 4 · softplus (−½ (d_r − ½)) and neg d_r = (1/25) · softplus (50 (d_r − 2)).
  The loss is  Σ_{label r = 1} pos d_r / max (#{label = 1}, 1)  +  Σ_{label r ≠ 1} neg d_r / max (131072 − #{label = 1}, 1).

  The kernel computes, 2048 rows at a grid point, the two columns μ_r · pos d_r and (1 − μ_r) · neg d_r with μ_r the indicator of
  "label r = 1" as a float; the host then sums the columns and counts the positive rows as the sum of the labels. The reference
  selects pos d_r or 0, and 0 or neg d_r, by the same indicator and counts the positive rows as the sum of the indicators.
  On the extended reals 1 · x = x and 0 · x = 0 for every x, a lane sum and a host sum of a row are the same finite sum, and for
  labels in {0, 1} the indicator is the label; so the two results are one expression (Proof/Bridge.lean). The three frames are the
  generated ones; the idealization rewrote nothing, so its conjunct is trivial.
-/
import proofs.«417344_j4252017623385_1_alg».proof.Defs
import proofs.«417344_j4252017623385_1_alg».proof.Proof.Gen.Kernel
import proofs.«417344_j4252017623385_1_alg».proof.Proof.Gen.Kernel.Skeleton
import proofs.«417344_j4252017623385_1_alg».proof.Proof.Gen.Kernel.Launch
import proofs.«417344_j4252017623385_1_alg».proof.Proof.Gen.Kernel.Points
import proofs.«417344_j4252017623385_1_alg».proof.Proof.Gen.Kernel.Frame
import proofs.«417344_j4252017623385_1_alg».proof.Proof.Gen.KernelIdeal
import proofs.«417344_j4252017623385_1_alg».proof.Proof.Gen.KernelIdeal.Skeleton
import proofs.«417344_j4252017623385_1_alg».proof.Proof.Gen.KernelIdeal.Launch
import proofs.«417344_j4252017623385_1_alg».proof.Proof.Gen.KernelIdeal.Points
import proofs.«417344_j4252017623385_1_alg».proof.Proof.Gen.KernelIdeal.Frame
import proofs.«417344_j4252017623385_1_alg».proof.Proof.Gen.ReferenceIdeal
import proofs.«417344_j4252017623385_1_alg».proof.Proof.Gen.Pre_finite_inputs
import Idealize.ShloMosaic.Adequacy
import Idealize.ShloMosaic.Init

import proofs.«417344_j4252017623385_1_alg».proof.Proof.Gen.ReferenceIdeal.Run
import proofs.«417344_j4252017623385_1_alg».proof.Proof.Gen.ReferenceIdeal.Read
import proofs.«417344_j4252017623385_1_alg».proof.Proof.Bridge

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the three arguments and satisfy the precondition, both programs end with the same loss. -/
theorem algebraic : Cert.algebraic_KernelIdeal_ReferenceIdeal := by
  intro m ρ m' ρ' hpre hagree
  refine ⟨fun c => Cert.KernelIdeal.Whole.kernelLoss
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v37_eq, (hagree c).1, (hagree c).2.1, (hagree c).2.2]
  exact Cert.Bridge.ref_eq_kernel _ _ _ (Cert.Labels.binary_of_pre _ _ _ (hpre c))

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
